-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8929x512 : Shape := ⟨2, ![8929, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8929x512 : S_.BroadcastsInDim S8929x512 (![] : Fin 0 → Fin S8929x512.rank)
  reducesTo_S8929x512_S_d0_1 : S8929x512.ReducesTo [0, 1] S_

variable [Facts]

def fn {F : FTy → Type} [FloatOps F] (main_arg0 : FVec F S8x2048x512 .f32) (main_arg1 : FVec F S8929x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8929x512 .f32 := Host.absf main_arg1
  let main_cst_0 : FVec F S_ .f32 := constant S_ .f32 0x7F800000#32
  let main_v5 : FVec F S8929x512 .f32 := broadcastInDim S8929x512 ![] bcast_S_S8929x512 main_cst_0
  let main_v6 : IVec S8929x512 1 := cmpf .olt main_v4 main_v5
  let main_c_1 : IVec S_ 1 := constantI S_ 1 1#1
  let main_v7 : IVec S_ 1 := (fun x v => Host.reduce IntOp.andi x v reducesTo_S8929x512_S_d0_1 h_S_) main_v6 main_c_1
  let main_v8 : IVec S_ 1 := andi main_v3 main_v7
  main_v8
-- ==== Kernel.lean ====
abbrev S8x2048x512 : Shape := ⟨3, ![8, 2048, 512]⟩
abbrev S8929x512 : Shape := ⟨2, ![8929, 512]⟩
abbrev S_ : Shape := ⟨0, ![]⟩
abbrev S9216x512 : Shape := ⟨2, ![9216, 512]⟩
abbrev S8x9216x512 : Shape := ⟨3, ![8, 9216, 512]⟩
abbrev S8x9216x2048 : Shape := ⟨3, ![8, 9216, 2048]⟩
abbrev S512x512 : Shape := ⟨2, ![512, 512]⟩
abbrev S1x2048x512 : Shape := ⟨3, ![1, 2048, 512]⟩
abbrev S1x512x512 : Shape := ⟨3, ![1, 512, 512]⟩
abbrev S1x512x2048 : Shape := ⟨3, ![1, 512, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S8x8929x512 : Shape := ⟨3, ![8, 8929, 512]⟩
abbrev S8x8929x2048 : Shape := ⟨3, ![8, 8929, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8929x512, .f32⟩
  | .hbm, ⟨2, _⟩ => ⟨S8x2048x512, .bf16⟩
  | .hbm, ⟨3, _⟩ => ⟨S8929x512, .bf16⟩
  | .hbm, ⟨4, _⟩ => ⟨S_, .i32⟩
  | .hbm, ⟨5, _⟩ => ⟨S_, .bf16⟩
  | .hbm, ⟨6, _⟩ => ⟨S9216x512, .bf16⟩
  | .hbm, ⟨7, _⟩ => ⟨S8x9216x512, .f32⟩
  | .hbm, ⟨8, _⟩ => ⟨S8x9216x2048, .f32⟩
  | .hbm, ⟨9, _⟩ => ⟨S8x8929x512, .f32⟩
  | .hbm, ⟨10, _⟩ => ⟨S8x8929x2048, .f32⟩
  | .local _ .vmem, ⟨0, _⟩ => ⟨S512x512, .bf16⟩
  | .local _ .vmem, ⟨1, _⟩ => ⟨S512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x2048, .f32⟩
  | .local _ .vmem, ⟨7, _⟩ => ⟨S1x512x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  pads_S8929x512_S9216x512_02870_000 : S8929x512.Pads (![0, 0] : Fin 2 → Nat) ![287, 0] ![0, 0] S9216x512
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  slices_S8x9216x512_S8x8929x512_0_0_0 : S8x9216x512.Slices ![0, 0, 0] S8x8929x512
  slices_S8x9216x2048_S8x8929x2048_0_0_0 : S8x9216x2048.Slices ![0, 0, 0] S8x8929x2048
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S9216x512.size a
  hwx0_0 : ∀ i : grid0.Coords, EltTy.bits .bf16 = 32 ∨ (Rect.block (s := S9216x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .bf16 = 32 ∨ (Rect.block (s := S8x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x9216x512.size a
  hwx0_2 : ∀ i : grid0.Coords, EltTy.bits .f32 = 32 ∨ (Rect.block (s := S8x9216x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x9216x2048.size a
  hwx0_3 : ∀ i : grid0.Coords, EltTy.bits .f32 = 32 ∨ (Rect.block (s := S8x9216x2048) S1x512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8929x512 : Shape := ⟨2, ![8929, 512]⟩
abbrev S8929x8x2048 : Shape := ⟨3, ![8929, 8, 2048]⟩
abbrev S8x8929x2048 : Shape := ⟨3, ![8, 8929, 2048]⟩
abbrev S_ : Shape := ⟨0, ![]⟩
abbrev S8x8929 : Shape := ⟨2, ![8, 8929]⟩
abbrev S8x8929x1 : Shape := ⟨3, ![8, 8929, 1]⟩
abbrev S8x8929x512 : Shape := ⟨3, ![8, 8929, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8929x512, .f32⟩
  | .hbm, ⟨2, _⟩ => ⟨S8929x8x2048, .f32⟩
  | .hbm, ⟨3, _⟩ => ⟨S8x8929x2048, .f32⟩
  | .hbm, ⟨4, _⟩ => ⟨S_, .f32⟩
  | .hbm, ⟨5, _⟩ => ⟨S8x8929, .f32⟩
  | .hbm, ⟨6, _⟩ => ⟨S_, .f32⟩
  | .hbm, ⟨7, _⟩ => ⟨S8x8929, .f32⟩
  | .hbm, ⟨8, _⟩ => ⟨S8x8929, .f32⟩
  | .hbm, ⟨9, _⟩ => ⟨S8x8929x1, .f32⟩
  | .hbm, ⟨10, _⟩ => ⟨S8x8929x2048, .f32⟩
  | .hbm, ⟨11, _⟩ => ⟨S8x8929x2048, .f32⟩
  | .hbm, ⟨12, _⟩ => ⟨S8x8929x2048, .f32⟩
  | .hbm, ⟨13, _⟩ => ⟨S_, .f32⟩
  | .hbm, ⟨14, _⟩ => ⟨S8x8929, .f32⟩
  | .hbm, ⟨15, _⟩ => ⟨S8x8929x1, .f32⟩
  | .hbm, ⟨16, _⟩ => ⟨S8x8929x2048, .f32⟩
  | .hbm, ⟨17, _⟩ => ⟨S8x8929x2048, .f32⟩
  | .hbm, ⟨18, _⟩ => ⟨S8x8929x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S8929x8x2048_S8x8929x2048_1_0_2 : S8929x8x2048.Transposes [1, 0, 2] S8x8929x2048
  reducesTo_S8x8929x2048_S8x8929_d2 : S8x8929x2048.ReducesTo [2] S8x8929
  h_S_ : 0 < S_.numel
  bcast_S_S8x8929 : S_.BroadcastsInDim S8x8929 (![] : Fin 0 → Fin S8x8929.rank)
  bcast_S8x8929_S8x8929x1_0_1 : S8x8929.BroadcastsInDim S8x8929x1 (![0, 1] : Fin 2 → Fin S8x8929x1.rank)
  bcast_S8x8929x1_S8x8929x2048_0_1_2 : S8x8929x1.BroadcastsInDim S8x8929x2048 (![0, 1, 2] : Fin 3 → Fin S8x8929x2048.rank)
  dot_S8929x512_S8x2048x512_S8929x8x2048_1_2_0_01_n_n_wf : DotDims.WF S8929x512 S8x2048x512 S8929x8x2048 [1] [2] [0] [0, 1] [] []
  dot_S8x8929x2048_S8x2048x512_S8x8929x512_2_1_1_2_0_0_wf : DotDims.WF S8x8929x2048 S8x2048x512 S8x8929x512 [2] [1] [1] [2] [0] [0]

variable [Facts₀]

def dot_S8929x512_S8x2048x512_S8929x8x2048_1_2_0_01_n_n : DotDims S8929x512 S8x2048x512 S8929x8x2048 where
  lhsContracting := [1]
  rhsContracting := [2]
  lhsNonContracting := [0]
  rhsNonContracting := [0, 1]
  lhsBatch := []
  rhsBatch := []
  wf := dot_S8929x512_S8x2048x512_S8929x8x2048_1_2_0_01_n_n_wf
def dot_S8x8929x2048_S8x2048x512_S8x8929x512_2_1_1_2_0_0 : DotDims S8x8929x2048 S8x2048x512 S8x8929x512 where
  lhsContracting := [2]
  rhsContracting := [1]
  lhsNonContracting := [1]
  rhsNonContracting := [2]
  lhsBatch := [0]
  rhsBatch := [0]
  wf := dot_S8x8929x2048_S8x2048x512_S8x8929x512_2_1_1_2_0_0_wf

class Facts : Prop extends Facts₀ where

variable [Facts]
-- ==== Proof.RowSoftmax.lean ====
/-
  Label attention, one label row at a time, on the extended reals.

  For a label row `u` (512 embedding entries) and one batch element's sequence `X` (2048 positions, 512 entries each):
  the score of position `s` is the inner product `∑ e, u e * X s e`; the row's softmax subtracts the row maximum
  (taken from `-∞` upward, and once more against `-∞`, as both programs spell it), exponentiates, and divides by the
  sum of the exponentials; the attended vector is the weights' combination of the sequence, `∑ s, weight s * X s e`.
  The two result arrays, attention weights `[8, n, 2048]` and attended vectors `[8, n, 512]`, apply this to row `l` of a
  label table with `n` rows against batch element `b`; each entry depends on that one row of the table only.
-/
import Idealize.ShloMosaic.PureOps.Ideal
import Idealize.ShloMosaic.PureOps.Ideal.Laws
import Idealize.ShloMosaic.Lib.ValueIdx

noncomputable section

namespace Cert.LabelAttention

open Idealize.ShloMosaic Idealize.ShloMosaic.ValueIdx

/-- What the f32 pattern of `-∞` denotes: the value both row maxima start from. -/
abbrev negInf : EReal := Ideal.ofBits .f32 0xFF800000#32

/-- The score of sequence position `s` for label row `u`: their inner product over the embedding axis. -/
def score (u : Fin 512 → EReal) (X : Fin 2048 → Fin 512 → EReal) (s : Fin 2048) : EReal :=
  ∑ e : Fin 512, u e * X s e

/-- The largest score of a row, folded from `-∞` and compared with `-∞` once more. -/
def rowMax (sc : Fin 2048 → EReal) : EReal :=
  max negInf ((Finset.univ : Finset (Fin 2048)).fold max negInf sc)

/-- The exponential of a score shifted by the row maximum. -/
def expShift (sc : Fin 2048 → EReal) (s : Fin 2048) : EReal := Ideal.exp (sc s - rowMax sc)

/-- The softmax weight of position `s`: its shifted exponential over the row's sum of them. -/
def weight (sc : Fin 2048 → EReal) (s : Fin 2048) : EReal :=
  Ideal.div (expShift sc s) (∑ s' : Fin 2048, expShift sc s')

/-- Entry `e` of the attended vector: the sequence's entries `e` combined with the softmax weights. -/
def attend (sc : Fin 2048 → EReal) (X : Fin 2048 → Fin 512 → EReal) (e : Fin 512) : EReal :=
  ∑ s : Fin 2048, weight sc s * X s e

/-- Row `l` of a label table with `n` rows. -/
abbrev rowOf {n : Nat} (U : (⟨2, ![n, 512]⟩ : Shape).Idx → EReal) (l : Fin n) : Fin 512 → EReal := fun e => U (ix2 l e)

/-- Batch element `b`'s sequence. -/
abbrev seqOf (x : (⟨3, ![8, 2048, 512]⟩ : Shape).Idx → EReal) (b : Fin 8) : Fin 2048 → Fin 512 → EReal :=
  fun s e => x (ix3 b s e)

/-- The attention weight of label `l` on position `s` of batch element `b`. -/
def alphaAt {n : Nat} (x : (⟨3, ![8, 2048, 512]⟩ : Shape).Idx → EReal) (U : (⟨2, ![n, 512]⟩ : Shape).Idx → EReal)
    (b : Fin 8) (l : Fin n) (s : Fin 2048) : EReal :=
  weight (score (rowOf U l) (seqOf x b)) s

/-- Entry `e` of label `l`'s attended vector for batch element `b`. -/
def outAt {n : Nat} (x : (⟨3, ![8, 2048, 512]⟩ : Shape).Idx → EReal) (U : (⟨2, ![n, 512]⟩ : Shape).Idx → EReal)
    (b : Fin 8) (l : Fin n) (e : Fin 512) : EReal :=
  attend (score (rowOf U l) (seqOf x b)) (seqOf x b) e

/-- The array of attention weights. -/
def alphaArr {n : Nat} (x : (⟨3, ![8, 2048, 512]⟩ : Shape).Idx → EReal) (U : (⟨2, ![n, 512]⟩ : Shape).Idx → EReal) :
    (⟨3, ![8, n, 2048]⟩ : Shape).Idx → EReal := fun i => alphaAt x U (i 0) (i 1) (i 2)

/-- The array of attended vectors. -/
def outArr {n : Nat} (x : (⟨3, ![8, 2048, 512]⟩ : Shape).Idx → EReal) (U : (⟨2, ![n, 512]⟩ : Shape).Idx → EReal) :
    (⟨3, ![8, n, 512]⟩ : Shape).Idx → EReal := fun i => outAt x U (i 0) (i 1) (i 2)

/-- A label's results read only that label's row: two tables that agree on row `l` (of one and `l'` of the other)
    give the same weights … -/
theorem alphaAt_congr {n n' : Nat} (x : (⟨3, ![8, 2048, 512]⟩ : Shape).Idx → EReal)
    (U : (⟨2, ![n, 512]⟩ : Shape).Idx → EReal) (U' : (⟨2, ![n', 512]⟩ : Shape).Idx → EReal) (l : Fin n) (l' : Fin n')
    (h : ∀ e, U (ix2 l e) = U' (ix2 l' e)) (b : Fin 8) (s : Fin 2048) : alphaAt x U b l s = alphaAt x U' b l' s := by
  unfold alphaAt
  rw [show rowOf U l = rowOf U' l' from funext h]

/-- … and the same attended vector. -/
theorem outAt_congr {n n' : Nat} (x : (⟨3, ![8, 2048, 512]⟩ : Shape).Idx → EReal)
    (U : (⟨2, ![n, 512]⟩ : Shape).Idx → EReal) (U' : (⟨2, ![n', 512]⟩ : Shape).Idx → EReal) (l : Fin n) (l' : Fin n')
    (h : ∀ e, U (ix2 l e) = U' (ix2 l' e)) (b : Fin 8) (e : Fin 512) : outAt x U b l e = outAt x U' b l' e := by
  unfold outAt
  rw [show rowOf U l = rowOf U' l' from funext h]

end Cert.LabelAttention

end
-- ==== Proof.TileBody.lean ====
/-
  What the kernel body computes for one tile, index by index, on the extended reals.

  The body receives a block `x0` of 512 label rows and one batch element's sequence `x1` (a leading unit axis, 2048
  positions, 512 entries). Its score matrix is the product of the rows with the sequence over the embedding axis; a
  row's maximum is folded from `-∞` and compared with `-∞` again; the shifted exponentials are summed along the row and
  divided through: entry (p, q) of the stored weight block is the softmax weight of position `q` for row `p`. The second
  product contracts those weights (their change of float format is the identity on the extended reals) with the sequence
  over the positions: entry (p, e) of the other stored block is entry `e` of row `p`'s attended vector.
-/
import proofs.«170555_j85899346168_1_alg».proof.Proof.Gen.KernelIdeal.Skeleton
import proofs.«170555_j85899346168_1_alg».proof.Proof.RowSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.AttnTile

open Cert.KernelIdeal Cert.KernelIdeal.Gen Cert.LabelAttention
open Idealize.ShloMosaic Idealize.ShloMosaic.ValueIdx

/-! ## Layout steps read at an index -/

/-- A vector of 512 row values, cast to a column and broadcast along the 2048 positions, reads at (p, q) the value of row `p`. -/
theorem column_apply {α : Type} (v : S512.Idx → α) (h1 : S512.ShapeCasts S512x1) (h2 : S512x1.Broadcasts S512x2048)
    (p : Fin 512) (q : Fin 2048) :
    broadcastTo S512x2048 (shapeCast S512x1 v h1) h2 (ix2 p q) = v (ix1 p) := by
  refine (broadcastTo_apply (shapeCast S512x1 v h1) h2 (ix2 p q) (ix2 p (0 : Fin 1)) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
  · refine shapeCast_apply v h1 (ix2 p (0 : Fin 1)) (ix1 p) ?_
    rw [Shape.rowMajor_val_one, Shape.rowMajor_val_two]
    show p.val = p.val * 1 + 0
    omega

/-- The indices of the score matrix that reduce to row `p` are (p, k), `k` running over the positions. -/
theorem lift_row (h : S512x2048.Reduces [1] S512) (p : Fin 512) (k : Fin 2048) : h.lift (ix1 p) k = ix2 p k :=
  funext fun a => Fin.ext (by match a with | ⟨0, _⟩ => rfl | ⟨1, _⟩ => rfl)

/-- A row maximum of a 512 × 2048 matrix, taken from the pattern of `-∞`, is the fold of `max` over the row's 2048 entries
    from what that pattern denotes. -/
theorem rowMaxFold_apply (M : FVec Ideal S512x2048 .f32) (h : S512x2048.Reduces [1] S512)
    (hφ : FKind.Formats .f32) (hacc : (0xFF800000#32 : BitVec 32) = 0xFF800000#32) (p : Fin 512) :
    multiReduction .maximumf [1] S512 M 0xFF800000#32 h hφ hacc (ix1 p)
      = (Finset.univ : Finset (Fin 2048)).fold max (Ideal.ofBits .f32 0xFF800000#32) (fun s => M (ix2 p s)) := by
  refine (Ideal.multiReduction_maximumf_single M 0xFF800000#32 h hφ hacc (ix1 p)).trans ?_
  exact congrArg ((Finset.univ : Finset (Fin 2048)).fold max (Ideal.ofBits .f32 0xFF800000#32))
    (funext fun k => congrArg M (lift_row h p k))

/-- A row sum of a 512 × 2048 matrix, taken from the zero pattern, is the sum of the row's 2048 entries. -/
theorem rowSum_apply (M : FVec Ideal S512x2048 .f32) (h : S512x2048.Reduces [1] S512)
    (hφ : FKind.Formats .f32) (hacc : (0x00000000#32 : BitVec 32) = 0x00000000#32) (p : Fin 512) :
    multiReduction .add [1] S512 M 0x00000000#32 h hφ hacc (ix1 p) = ∑ s : Fin 2048, M (ix2 p s) := by
  refine (Ideal.multiReduction_add_single M 0x00000000#32 h hφ hacc (ix1 p)).trans ?_
  exact Finset.sum_congr rfl fun k _ => congrArg M (lift_row h p k)

/-! ## The two products read at an index

Each product's operand indices at an output index and a contraction position, one axis at a time; then the product
into the zero accumulator is the plain sum over the contracted axis. -/

theorem lhs_scores_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_scores_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_scores_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_scores_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The score matrix at (p, s): row `p` of the label block against position `s` of the sequence, summed over the
    512 embedding entries. -/
theorem scores_apply (x0 : FVec Ideal S512x512 .bf16) (x1 : FVec Ideal S1x2048x512 .bf16)
    (h0 : S512x512.ShapeCasts S512x512) (h1 : S1x2048x512.ShapeCasts S2048x512) (p : Fin 512) (s : Fin 2048) :
    matmul dot_S512x512_S2048x512_S512x2048_1_1_0_0_n_n none (shapeCast S512x512 x0 h0) (shapeCast S2048x512 x1 h1)
        (constant S512x2048 .f32 0x00000000#32) (ix2 p s)
      = ∑ e : Fin 512, x0 (ix2 p e) * x1 (ix3 (0 : Fin 1) s e) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p s) ((contrEquiv1 dot_S512x512_S2048x512_S512x2048_1_1_0_0_n_n 512 rfl rfl).symm k) = ix2 p k := funext fun a => Fin.ext (by
    match a with
    | ⟨0, _⟩ => exact lhs_scores_0 _ _
    | ⟨1, _⟩ => exact (lhs_scores_1 _ _).trans hk)
  have er : dot_S512x512_S2048x512_S512x2048_1_1_0_0_n_n.rhsIdx (ix2 p s) ((contrEquiv1 dot_S512x512_S2048x512_S512x2048_1_1_0_0_n_n 512 rfl rfl).symm k) = ix2 s k := funext fun a => Fin.ext (by
    match a with
    | ⟨0, _⟩ => exact rhs_scores_0 _ _
    | ⟨1, _⟩ => exact (rhs_scores_1 _ _).trans hk)
  rw [el, er, shapeCast_self, shapeCast_1ab_ab_apply]

theorem lhs_attend_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_attend_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_attend_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_attend_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The second product at (p, e): row `p` of a 512 × 2048 weight matrix against entry `e` of every position, summed over
    the 2048 positions; the weights' change of float format is the identity. -/
theorem combine_apply (A : FVec Ideal S512x2048 .f32) (x1 : FVec Ideal S1x2048x512 .bf16)
    (hlt : FTy.bits .bf16 < FTy.bits .f32) (h1 : S1x2048x512.ShapeCasts S2048x512) (p : Fin 512) (e : Fin 512) :
    matmul dot_S512x2048_S2048x512_S512x512_1_0_0_1_n_n none (truncf .bf16 A hlt) (shapeCast S2048x512 x1 h1)
        (constant S512x512 .f32 0x00000000#32) (ix2 p e)
      = ∑ s : Fin 2048, A (ix2 p s) * x1 (ix3 (0 : Fin 1) s e) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p e) ((contrEquiv1 dot_S512x2048_S2048x512_S512x512_1_0_0_1_n_n 2048 rfl rfl).symm k) = ix2 p k := funext fun a => Fin.ext (by
    match a with
    | ⟨0, _⟩ => exact lhs_attend_0 _ _
    | ⟨1, _⟩ => exact (lhs_attend_1 _ _).trans hk)
  have er : dot_S512x2048_S2048x512_S512x512_1_0_0_1_n_n.rhsIdx (ix2 p e) ((contrEquiv1 dot_S512x2048_S2048x512_S512x512_1_0_0_1_n_n 2048 rfl rfl).symm k) = ix2 k e := funext fun a => Fin.ext (by
    match a with
    | ⟨0, _⟩ => exact (rhs_attend_0 _ _).trans hk
    | ⟨1, _⟩ => exact rhs_attend_1 _ _)
  rw [el, er, truncf_apply, shapeCast_1ab_ab_apply]

end Cert.AttnTile

end
-- ==== Proof.TileValues.lean ====
/-
  The kernel body's values for one tile, step by step, on the extended reals: the score matrix, the row maxima, the
  shifted exponentials, their quotient by the row sums (the stored weight block), and the weights' combination of the
  sequence (the stored block of attended vectors). Each step read at an index is the specification's step for the
  block's row `p` against the sequence.
-/
import proofs.«170555_j85899346168_1_alg».proof.Proof.TileBody

noncomputable section

namespace Cert.AttnTile

open Cert.KernelIdeal Cert.KernelIdeal.Gen Cert.LabelAttention
open Idealize.ShloMosaic Idealize.ShloMosaic.ValueIdx

/-- The block's rows and the sequence as the specification reads them. -/
abbrev rowsOf (x0 : FVec Ideal S512x512 .bf16) (p : Fin 512) : Fin 512 → EReal := fun e => x0 (ix2 p e)
abbrev seqIn (x1 : FVec Ideal S1x2048x512 .bf16) : Fin 2048 → Fin 512 → EReal := fun s e => x1 (ix3 (0 : Fin 1) s e)

/-- A scalar float constant denotes what its bit pattern denotes. -/
theorem scalar_ofBits (b : BitVec 32) : Scalar.ofBits (F := Ideal) .f32 b = Ideal.ofBits .f32 b := rfl

/-- The exponential of a vector, entry by entry. -/
theorem exp_apply {s : Shape} (x : FVec Ideal s .f32) (i : s.Idx) : exp x i = Ideal.exp (x i) := rfl

/-- The score matrix of the tile. -/
noncomputable def scoreMat (x0 : FVec Ideal S512x512 .bf16) (x1 : FVec Ideal S1x2048x512 .bf16) : FVec Ideal S512x2048 .f32 :=
  matmul dot_S512x512_S2048x512_S512x2048_1_1_0_0_n_n none (shapeCast S512x512 x0 shapeCasts_S512x512_S512x512) (k0_pay1 x1) (constant S512x2048 .f32 0x00000000#32)

theorem scoreMat_apply (x0 : FVec Ideal S512x512 .bf16) (x1 : FVec Ideal S1x2048x512 .bf16) (p : Fin 512) (s : Fin 2048) :
    scoreMat x0 x1 (ix2 p s) = score (rowsOf x0 p) (seqIn x1) s :=
  scores_apply x0 x1 _ _ p s

theorem scoreMat_row (x0 : FVec Ideal S512x512 .bf16) (x1 : FVec Ideal S1x2048x512 .bf16) (p : Fin 512) :
    (fun s => scoreMat x0 x1 (ix2 p s)) = score (rowsOf x0 p) (seqIn x1) :=
  funext fun s => scoreMat_apply x0 x1 p s

/-- The row maxima of the tile. -/
noncomputable def maxVec (x0 : FVec Ideal S512x512 .bf16) (x1 : FVec Ideal S1x2048x512 .bf16) : FVec Ideal S512 .f32 :=
  maximumf (broadcast S512 (Scalar.ofBits .f32 0xFF800000#32))
    (multiReduction .maximumf [1] S512 (scoreMat x0 x1) 0xFF800000#32 reduces_S512x2048_S512 (.inl rfl) rfl)

theorem maxVec_apply (x0 : FVec Ideal S512x512 .bf16) (x1 : FVec Ideal S1x2048x512 .bf16) (p : Fin 512) :
    maxVec x0 x1 (ix1 p) = rowMax (score (rowsOf x0 p) (seqIn x1)) := by
  unfold maxVec rowMax
  rw [maximumf_apply, broadcast_apply, scalar_ofBits, rowMaxFold_apply, scoreMat_row]

/-- The shifted exponentials of the tile. -/
noncomputable def expMat (x0 : FVec Ideal S512x512 .bf16) (x1 : FVec Ideal S1x2048x512 .bf16) : FVec Ideal S512x2048 .f32 :=
  exp (subf (scoreMat x0 x1) (broadcastTo S512x2048 (shapeCast S512x1 (maxVec x0 x1) shapeCasts_S512_S512x1) broadcasts_S512x1_S512x2048))

theorem expMat_apply (x0 : FVec Ideal S512x512 .bf16) (x1 : FVec Ideal S1x2048x512 .bf16) (p : Fin 512) (q : Fin 2048) :
    expMat x0 x1 (ix2 p q) = expShift (score (rowsOf x0 p) (seqIn x1)) q := by
  unfold expMat expShift
  rw [exp_apply, subf_apply, column_apply, maxVec_apply, scoreMat_apply]

/-- The row sums of the shifted exponentials. -/
noncomputable def sumVec (x0 : FVec Ideal S512x512 .bf16) (x1 : FVec Ideal S1x2048x512 .bf16) : FVec Ideal S512 .f32 :=
  multiReduction .add [1] S512 (expMat x0 x1) 0x00000000#32 reduces_S512x2048_S512 (.inl rfl) rfl

theorem sumVec_apply (x0 : FVec Ideal S512x512 .bf16) (x1 : FVec Ideal S1x2048x512 .bf16) (p : Fin 512) :
    sumVec x0 x1 (ix1 p) = ∑ s : Fin 2048, expShift (score (rowsOf x0 p) (seqIn x1)) s := by
  unfold sumVec
  rw [rowSum_apply]
  exact Finset.sum_congr rfl fun s _ => expMat_apply x0 x1 p s

/-- The weight matrix of the tile: the shifted exponentials over their row sums. -/
noncomputable def weightMat (x0 : FVec Ideal S512x512 .bf16) (x1 : FVec Ideal S1x2048x512 .bf16) : FVec Ideal S512x2048 .f32 :=
  divf (expMat x0 x1) (broadcastTo S512x2048 (shapeCast S512x1 (sumVec x0 x1) shapeCasts_S512_S512x1) broadcasts_S512x1_S512x2048)

/-- Entry (p, q) of the weight matrix: the softmax weight of position `q` for row `p` of the block. -/
theorem weightMat_apply (x0 : FVec Ideal S512x512 .bf16) (x1 : FVec Ideal S1x2048x512 .bf16) (p : Fin 512) (q : Fin 2048) :
    weightMat x0 x1 (ix2 p q) = weight (score (rowsOf x0 p) (seqIn x1)) q := by
  unfold weightMat weight
  rw [divf_apply, column_apply, sumVec_apply, expMat_apply]

end Cert.AttnTile

end
-- ==== Proof.TilePayloads.lean ====
/-
  The two blocks the kernel body stores, index by index.

  The printed weight payload is the tile's weight matrix (the same operations, named step by step); the stored weight
  block is that matrix under a leading unit axis, and the stored block of attended vectors is the product of the weight
  matrix with the sequence over the positions, under a leading unit axis.
-/
import proofs.«170555_j85899346168_1_alg».proof.Proof.TileValues

noncomputable section

namespace Cert.AttnTile

open Cert.KernelIdeal Cert.KernelIdeal.Gen Cert.LabelAttention
open Idealize.ShloMosaic Idealize.ShloMosaic.ValueIdx

/-- The printed quotient is the weight matrix of the tile. -/
theorem pay2_eq (x0 : FVec Ideal S512x512 .bf16) (x1 : FVec Ideal S1x2048x512 .bf16) :
    k0_pay2 (F := Ideal) x0 x1 = weightMat x0 x1 := by
  unfold k0_pay2 weightMat sumVec expMat maxVec scoreMat
  rfl

/-- Entry (p, q) of the printed quotient: the softmax weight of position `q` for row `p` of the block. -/
theorem pay2_apply (x0 : FVec Ideal S512x512 .bf16) (x1 : FVec Ideal S1x2048x512 .bf16) (p : Fin 512) (q : Fin 2048) :
    k0_pay2 (F := Ideal) x0 x1 (ix2 p q) = weight (score (rowsOf x0 p) (seqIn x1)) q :=
  (congrFun (pay2_eq x0 x1) (ix2 p q)).trans (weightMat_apply x0 x1 p q)

/-- The stored weight block, with its leading unit axis. -/
theorem pay3_apply (x0 : FVec Ideal S512x512 .bf16) (x1 : FVec Ideal S1x2048x512 .bf16) (u : Fin 1) (p : Fin 512) (q : Fin 2048) :
    k0_pay3 (F := Ideal) x0 x1 (ix3 u p q) = weight (score (rowsOf x0 p) (seqIn x1)) q := by
  unfold k0_pay3
  exact (shapeCast_ab_1ab_apply (k0_pay2 (F := Ideal) x0 x1) _ u p q).trans (pay2_apply x0 x1 p q)

/-- The stored block of attended vectors, with its leading unit axis. -/
theorem pay4_apply (x0 : FVec Ideal S512x512 .bf16) (x1 : FVec Ideal S1x2048x512 .bf16) (u : Fin 1) (p : Fin 512) (e : Fin 512) :
    k0_pay4 (F := Ideal) x0 x1 (ix3 u p e) = attend (score (rowsOf x0 p) (seqIn x1)) (seqIn x1) e := by
  unfold k0_pay4 k0_pay1 attend
  refine (shapeCast_ab_1ab_apply _ _ u p e).trans ?_
  refine (combine_apply (k0_pay2 (F := Ideal) x0 x1) x1 _ _ p e).trans ?_
  exact Finset.sum_congr rfl fun s _ => congrArg (· * x1 (ix3 (0 : Fin 1) s e)) (pay2_apply x0 x1 p s)

end Cert.AttnTile

end
-- ==== Proof.TileArrays.lean ====
/-
  From the tiles to the whole (padded) result arrays.

  The grid is 8 batch elements by 18 tiles of 512 label rows; point `t` is batch element `t / 18` and tile `t % 18`. It
  reads rows `(t % 18) * 512 …` of the padded label table and the whole sequence of batch element `t / 18`, and writes
  the blocks at (t / 18, t % 18) of the two result arrays. By the tile lemmas what it writes is the matching block of
  the label-attention arrays of the sequence array and the padded table; the 144 blocks cover both arrays, so after the
  run each array IS that label-attention array.
-/
import proofs.«170555_j85899346168_1_alg».proof.Proof.Gen.KernelIdeal.Frame
import proofs.«170555_j85899346168_1_alg».proof.Proof.TilePayloads
import Idealize.ShloMosaic.Lib.Pipeline.Value

set_option maxRecDepth 16384

noncomputable section

namespace Cert.AttnArrays

open Cert.KernelIdeal Cert.KernelIdeal.Gen Cert.LabelAttention Cert.AttnTile
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The padded label table and the sequence array as the region finds them. -/
abbrev tableIn (c : Dev nD) : FVec Ideal S9216x512 .bf16 := V m c main_v2
abbrev seqArr (c : Dev nD) : FVec Ideal S8x2048x512 .bf16 := V m c main_v0

/-- The two input blocks at a point. -/
abbrev rowBlock (c : Dev nD) (t : Fin cfg0.N) : FVec Ideal S512x512 .bf16 := iblk m c 0 t
abbrev seqBlock (c : Dev nD) (t : Fin cfg0.N) : FVec Ideal S1x2048x512 .bf16 := iblk m c 1 t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps in closed form, decided over the grid -/

theorem index0_eq : ∀ t : Fin cfg0.N, win0_0.index t = ![t.val % 18, 0] :=
  (by decide +kernel : ∀ t : Fin grid0.N, win0_0.index t = ![t.val % 18, 0])
theorem index1_eq : ∀ t : Fin cfg0.N, win0_1.index t = ![t.val / 18, 0, 0] :=
  (by decide +kernel : ∀ t : Fin grid0.N, win0_1.index t = ![t.val / 18, 0, 0])
theorem index2_eq : ∀ t : Fin cfg0.N, win0_2.index t = ![t.val / 18, t.val % 18, 0] :=
  (by decide +kernel : ∀ t : Fin grid0.N, win0_2.index t = ![t.val / 18, t.val % 18, 0])
theorem index3_eq : ∀ t : Fin cfg0.N, win0_3.index t = ![t.val / 18, t.val % 18, 0] :=
  (by decide +kernel : ∀ t : Fin grid0.N, win0_3.index t = ![t.val / 18, t.val % 18, 0])

/-! ## The input blocks read off the arrays -/

/-- Row `p` of the label block at point `t` is row `(t % 18) * 512 + p` of the padded table. -/
theorem rowBlock_apply (c : Dev nD) (t : Fin cfg0.N) (p e : Fin 512) (l : Fin 9216) (hl : l.val = (t.val % 18) * 512 + p.val) :
    rowBlock m c t (ix2 p e) = tableIn m c (ix2 l e) := by
  show V m c main_v2 (((cfg0.win 0).blk t).view.emb (ix2 p e)) = V m c main_v2 (ix2 l e)
  refine congrArg (V m c main_v2) (funext fun a => Fin.ext ?_)
  have e0 : win0_0.index t (0 : Fin 2) = t.val % 18 := congrFun (index0_eq t) 0
  have e1 : win0_0.index t (1 : Fin 2) = 0 := congrFun (index0_eq t) 1
  match a with
  | ⟨0, _⟩ => show win0_0.index t (0 : Fin 2) * 512 + 1 * p.val = l.val; omega
  | ⟨1, _⟩ => show win0_0.index t (1 : Fin 2) * 512 + 1 * e.val = e.val; omega

/-- The sequence block at point `t` is batch element `t / 18` of the sequence array. -/
theorem seqBlock_apply (c : Dev nD) (t : Fin cfg0.N) (u : Fin 1) (s : Fin 2048) (e : Fin 512) (b : Fin 8) (hb : b.val = t.val / 18) :
    seqBlock m c t (ix3 u s e) = seqArr m c (ix3 b s e) := by
  show V m c main_v0 (((cfg0.win 1).blk t).view.emb (ix3 u s e)) = V m c main_v0 (ix3 b s e)
  refine congrArg (V m c main_v0) (funext fun a => Fin.ext ?_)
  have e0 : win0_1.index t (0 : Fin 3) = t.val / 18 := congrFun (index1_eq t) 0
  have e1 : win0_1.index t (1 : Fin 3) = 0 := congrFun (index1_eq t) 1
  have e2 : win0_1.index t (2 : Fin 3) = 0 := congrFun (index1_eq t) 2
  have hu : u.val = 0 := by omega
  match a with
  | ⟨0, _⟩ => show win0_1.index t (0 : Fin 3) * 1 + 1 * u.val = b.val; omega
  | ⟨1, _⟩ => show win0_1.index t (1 : Fin 3) * 2048 + 1 * s.val = s.val; omega
  | ⟨2, _⟩ => show win0_1.index t (2 : Fin 3) * 512 + 1 * e.val = e.val; omega

/-- The specification's row and sequence of a tile are those of the arrays. -/
theorem rows_eq (c : Dev nD) (t : Fin cfg0.N) (p : Fin 512) (l : Fin 9216) (hl : l.val = (t.val % 18) * 512 + p.val) :
    rowsOf (rowBlock m c t) p = rowOf (tableIn m c) l :=
  funext fun e => rowBlock_apply m c t p e l hl
theorem seq_eq (c : Dev nD) (t : Fin cfg0.N) (b : Fin 8) (hb : b.val = t.val / 18) :
    seqIn (seqBlock m c t) = seqOf (seqArr m c) b :=
  funext fun s => funext fun e => seqBlock_apply m c t 0 s e b hb

/-! ## The weights array (window 3) -/

/-- WHAT POINT `t` WRITES BACK to the weights array is block `t` of the label-attention weights of the sequence array
    and the padded table. -/
theorem flushed3_eq (c : Dev nD) (t : Fin cfg0.N) :
    (dats m 0 c).flushed 3 t = ((cfg0.win 3).blk t).view.read (Elt Ideal) (alphaArr (seqArr m c) (tableIn m c)) := by
  show (cfg0.win 3).cut (grid0.coords t) ((dats m 0 c).after 3 t) = _
  rw [after0_3]
  unfold out0_3
  rw [View.canon_unit_zero hz3]
  simp only [View.ld_unit_zero (S := S512x512) hz2, View.ld_unit_zero (S := S1x2048x512) hz3]
  funext j
  have e0 : win0_3.index t (0 : Fin 3) = t.val / 18 := congrFun (index3_eq t) 0
  have e1 : win0_3.index t (1 : Fin 3) = t.val % 18 := congrFun (index3_eq t) 1
  have e2 : win0_3.index t (2 : Fin 3) = 0 := congrFun (index3_eq t) 2
  have hj0 : (j 0).val < 1 := (j 0).isLt
  have hj1 : (j 1).val < 512 := (j 1).isLt
  have hj2 : (j 2).val < 2048 := (j 2).isLt
  show k0_pay3 (F := Ideal) (rowBlock m c t) (seqBlock m c t) (ix3 (j 0) (j 1) (j 2))
      = alphaAt (seqArr m c) (tableIn m c) ((((cfg0.win 3).blk t).view.emb j) 0) ((((cfg0.win 3).blk t).view.emb j) 1) ((((cfg0.win 3).blk t).view.emb j) 2)
  refine (pay3_apply (rowBlock m c t) (seqBlock m c t) (j 0) (j 1) (j 2)).trans ?_
  unfold alphaAt
  rw [rows_eq m c t (j 1) ((((cfg0.win 3).blk t).view.emb j) 1)
        (by show win0_3.index t (1 : Fin 3) * 512 + 1 * (j 1).val = _; omega),
      seq_eq m c t ((((cfg0.win 3).blk t).view.emb j) 0)
        (by show win0_3.index t (0 : Fin 3) * 1 + 1 * (j 0).val = _; omega)]
  exact congrArg _ (Fin.ext (by show (j 2).val = win0_3.index t (2 : Fin 3) * 2048 + 1 * (j 2).val; omega))

/-- An index of the weights array is in point `t`'s block iff each coordinate is in the block's range on its axis. -/
theorem mem_blk3 (t : Fin cfg0.N) (i : S8x9216x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v3_1).slice (win0_3.rect t)).set ↔ _
  rw [View.set_slice_whole, Rect.mem_set_unit]
  exact Iff.rfl

/-- Every index (b, l, s) of the weights array lies in the block of point `b * 18 + l / 512`. -/
theorem cover3 (i : S8x9216x2048.Idx) :
    ∃ t : Fin cfg0.N, (cfg0.win 3).flush t = true ∧ i ∈ ((cfg0.win 3).blk t).view.set := by
  have h0 : (i 0).val < 8 := (i 0).isLt
  have h1 : (i 1).val < 9216 := (i 1).isLt
  have h2 : (i 2).val < 2048 := (i 2).isLt
  have hN : (i 0).val * 18 + (i 1).val / 512 < cfg0.N := by show _ < grid0.N; rw [N_0]; omega
  refine ⟨⟨(i 0).val * 18 + (i 1).val / 512, hN⟩, flush0_3 _, ?_⟩
  rw [mem_blk3]
  have e0 : win0_3.index ⟨(i 0).val * 18 + (i 1).val / 512, hN⟩ (0 : Fin 3) = ((i 0).val * 18 + (i 1).val / 512) / 18 := congrFun (index3_eq _) 0
  have e1 : win0_3.index ⟨(i 0).val * 18 + (i 1).val / 512, hN⟩ (1 : Fin 3) = ((i 0).val * 18 + (i 1).val / 512) % 18 := congrFun (index3_eq _) 1
  have e2 : win0_3.index ⟨(i 0).val * 18 + (i 1).val / 512, hN⟩ (2 : Fin 3) = 0 := congrFun (index3_eq _) 2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 2048 ≤ (i 2).val ∧ (i 2).val < win0_3.index _ (2 : Fin 3) * 2048 + 2048; omega

/-- THE WEIGHTS ARRAY after the run: the label-attention weights of the sequence array and the padded table. -/
theorem final3 (c : Dev nD) : (dats m 0 c).arrAt 3 cfg0.N = alphaArr (seqArr m c) (tableIn m c) :=
  (dats m 0 c).arrAt_eq_of_cover 3 _ (fun t _ => flushed3_eq m c t) cover3

/-! ## The array of attended vectors (window 2) -/

/-- WHAT POINT `t` WRITES BACK to the array of attended vectors is block `t` of the label-attention result of the
    sequence array and the padded table. -/
theorem flushed2_eq (c : Dev nD) (t : Fin cfg0.N) :
    (dats m 0 c).flushed 2 t = ((cfg0.win 2).blk t).view.read (Elt Ideal) (outArr (seqArr m c) (tableIn m c)) := by
  show (cfg0.win 2).cut (grid0.coords t) ((dats m 0 c).after 2 t) = _
  rw [after0_2]
  unfold out0_2
  rw [View.canon_unit_zero hz3]
  simp only [View.ld_unit_zero (S := S512x512) hz2, View.ld_unit_zero (S := S1x2048x512) hz3]
  funext j
  have e0 : win0_2.index t (0 : Fin 3) = t.val / 18 := congrFun (index2_eq t) 0
  have e1 : win0_2.index t (1 : Fin 3) = t.val % 18 := congrFun (index2_eq t) 1
  have e2 : win0_2.index t (2 : Fin 3) = 0 := congrFun (index2_eq t) 2
  have hj0 : (j 0).val < 1 := (j 0).isLt
  have hj1 : (j 1).val < 512 := (j 1).isLt
  have hj2 : (j 2).val < 512 := (j 2).isLt
  show k0_pay4 (F := Ideal) (rowBlock m c t) (seqBlock m c t) (ix3 (j 0) (j 1) (j 2))
      = outAt (seqArr m c) (tableIn m c) ((((cfg0.win 2).blk t).view.emb j) 0) ((((cfg0.win 2).blk t).view.emb j) 1) ((((cfg0.win 2).blk t).view.emb j) 2)
  refine (pay4_apply (rowBlock m c t) (seqBlock m c t) (j 0) (j 1) (j 2)).trans ?_
  unfold outAt
  rw [rows_eq m c t (j 1) ((((cfg0.win 2).blk t).view.emb j) 1)
        (by show win0_2.index t (1 : Fin 3) * 512 + 1 * (j 1).val = _; omega),
      seq_eq m c t ((((cfg0.win 2).blk t).view.emb j) 0)
        (by show win0_2.index t (0 : Fin 3) * 1 + 1 * (j 0).val = _; omega)]
  exact congrArg _ (Fin.ext (by show (j 2).val = win0_2.index t (2 : Fin 3) * 512 + 1 * (j 2).val; omega))

theorem mem_blk2 (t : Fin cfg0.N) (i : S8x9216x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v3_0).slice (win0_2.rect t)).set ↔ _
  rw [View.set_slice_whole, Rect.mem_set_unit]
  exact Iff.rfl

theorem cover2 (i : S8x9216x512.Idx) :
    ∃ t : Fin cfg0.N, (cfg0.win 2).flush t = true ∧ i ∈ ((cfg0.win 2).blk t).view.set := by
  have h0 : (i 0).val < 8 := (i 0).isLt
  have h1 : (i 1).val < 9216 := (i 1).isLt
  have h2 : (i 2).val < 512 := (i 2).isLt
  have hN : (i 0).val * 18 + (i 1).val / 512 < cfg0.N := by show _ < grid0.N; rw [N_0]; omega
  refine ⟨⟨(i 0).val * 18 + (i 1).val / 512, hN⟩, flush0_2 _, ?_⟩
  rw [mem_blk2]
  have e0 : win0_2.index ⟨(i 0).val * 18 + (i 1).val / 512, hN⟩ (0 : Fin 3) = ((i 0).val * 18 + (i 1).val / 512) / 18 := congrFun (index2_eq _) 0
  have e1 : win0_2.index ⟨(i 0).val * 18 + (i 1).val / 512, hN⟩ (1 : Fin 3) = ((i 0).val * 18 + (i 1).val / 512) % 18 := congrFun (index2_eq _) 1
  have e2 : win0_2.index ⟨(i 0).val * 18 + (i 1).val / 512, hN⟩ (2 : Fin 3) = 0 := congrFun (index2_eq _) 2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 512 ≤ (i 2).val ∧ (i 2).val < win0_2.index _ (2 : Fin 3) * 512 + 512; omega

/-- THE ARRAY OF ATTENDED VECTORS after the run. -/
theorem final2 (c : Dev nD) : (dats m 0 c).arrAt 2 cfg0.N = outArr (seqArr m c) (tableIn m c) :=
  (dats m 0 c).arrAt_eq_of_cover 2 _ (fun t _ => flushed2_eq m c t) cover2

end Cert.AttnArrays

end
-- ==== Proof.AroundRegion.lean ====
/-
  The host operations around the kernel region, read at an index.

  Before the region the two inputs change float format (the identity on the extended reals) and the label table is padded
  with 287 rows below: a row `l < 8929` of the padded table is row `l` of the input table, and the sequence array is the
  input. After the region the two result arrays are cut back to their first 8929 label rows. A label's results read only
  that label's row of the table, so the cut arrays are the label-attention arrays of the two inputs.
-/
import proofs.«170555_j85899346168_1_alg».proof.Proof.TileArrays
import Idealize.ShloMosaic.Lib.StableHlo.Run
import Idealize.ShloMosaic.Lib.KernelVsHost
import Idealize.ShloMosaic.Lib.ValueLayout

set_option maxRecDepth 16384

noncomputable section

namespace Cert.AttnArrays

open Cert.KernelIdeal Cert.KernelIdeal.Gen Cert.LabelAttention Cert.AttnTile
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The two inputs as launched. -/
abbrev xIn (c : Dev nD) : FVec Ideal S8x2048x512 .f32 := m ((c : Thread nD τ).loc main_arg0)
abbrev uIn (c : Dev nD) : FVec Ideal S8929x512 .f32 := m ((c : Thread nD τ).loc main_arg1)

/-! ## Before the region -/

/-- The sequence array the region finds is the input's change of format. -/
theorem seqArr_term (c : Dev nD) :
    (V m c main_v0 : S8x2048x512.Idx → EReal) = truncf .bf16 (xIn m c) bitsLt_bf16_f32 := by
  dsimp only [V, V0]
  simp only [hostOps0, hostOps0_1, List.flatten_cons, List.flatten_nil, List.append_nil, List.cons_append, List.nil_append]
  after_results

/-- The padded table the region finds is the pad of the input table's change of format. -/
theorem tableIn_term (c : Dev nD) :
    (V m c main_v2 : S9216x512.Idx → EReal)
      = pad S9216x512 ![0, 0] ![287, 0] ![0, 0] (truncf .bf16 (uIn m c) bitsLt_bf16_f32)
          (sitofp (F := Ideal) .bf16 (constantI S_ 32 0#32)) pads_S8929x512_S9216x512_02870_000 h_S_ := by
  dsimp only [V, V0]
  simp only [hostOps0, hostOps0_1, List.flatten_cons, List.flatten_nil, List.append_nil, List.cons_append, List.nil_append]
  after_results
  rfl

/-- On the extended reals the sequence array is the input. -/
theorem seqArr_eq (c : Dev nD) : seqArr m c = xIn m c := seqArr_term m c

/-- A row below 8929 of the padded table is that row of the input table. -/
theorem tableIn_row (c : Dev nD) (l : Fin 8929) (l' : Fin 9216) (hl : l'.val = l.val) (e : Fin 512) :
    tableIn m c (ix2 l' e) = uIn m c (ix2 l e) := by
  show (V m c main_v2 : S9216x512.Idx → EReal) (ix2 l' e) = _
  rw [tableIn_term]
  refine (pad_apply_of_inside _ _ _ _ _ _ _ (ix2 l' e) (ix2 l e) (fun a => ?_)).trans ?_
  · match a with
    | ⟨0, _⟩ => show l'.val = 0 + l.val * (0 + 1); omega
    | ⟨1, _⟩ => show e.val = 0 + e.val * (0 + 1); omega
  · rfl

/-! ## After the region -/

/-- The first result is the array of attended vectors cut to its first 8929 label rows. -/
theorem out_tail (c : Dev nD) :
    Pipeline.afterTail₀ cfgs (dats m) 0 (V0 m) [hostOps1] c main_v4
      = extractStridedSlice S8x8929x512 ![0, 0, 0] (outArr (seqArr m c) (tableIn m c)) slices_S8x9216x512_S8x8929x512_0_0_0 := by
  unfold Pipeline.afterTail₀
  show StableHlo.after hostOps1 _ (Proc.devRef .tc main_v4) = _
  after_results
  exact congrArg (fun X => extractStridedSlice S8x8929x512 ![0, 0, 0] X slices_S8x9216x512_S8x8929x512_0_0_0)
    ((Pipeline.withArrays_arr spec0 launch0.win.arr_inj c (V0 m c) (fun w => (dats m 0 c).arrAt w cfg0.N) 2).trans (final2 m c))

/-- The second result is the weights array cut to its first 8929 label rows. -/
theorem alpha_tail (c : Dev nD) :
    Pipeline.afterTail₀ cfgs (dats m) 0 (V0 m) [hostOps1] c main_v5
      = extractStridedSlice S8x8929x2048 ![0, 0, 0] (alphaArr (seqArr m c) (tableIn m c)) slices_S8x9216x2048_S8x8929x2048_0_0_0 := by
  unfold Pipeline.afterTail₀
  show StableHlo.after hostOps1 _ (Proc.devRef .tc main_v5) = _
  after_results
  exact congrArg (fun X => extractStridedSlice S8x8929x2048 ![0, 0, 0] X slices_S8x9216x2048_S8x8929x2048_0_0_0)
    ((Pipeline.withArrays_arr spec0 launch0.win.arr_inj c (V0 m c) (fun w => (dats m 0 c).arrAt w cfg0.N) 3).trans (final3 m c))

/-- Cut to the first 8929 label rows, the weights over the padded table are the weights over the input table. -/
theorem alpha_cut (c : Dev nD) :
    extractStridedSlice S8x8929x2048 ![0, 0, 0] (alphaArr (seqArr m c) (tableIn m c)) slices_S8x9216x2048_S8x8929x2048_0_0_0
      = alphaArr (xIn m c) (uIn m c) := by
  funext i
  obtain ⟨b, l, s, rfl⟩ : ∃ (b : Fin 8) (l : Fin 8929) (s : Fin 2048), i = ix3 b l s := ⟨i 0, i 1, i 2, eq_ix3 i⟩
  have hl : l.val < 9216 := by have := l.isLt; omega
  refine (slice3_axis1_apply 0 _ _ b l s ⟨l.val, hl⟩ (by show l.val = 0 + l.val; omega)).trans ?_
  show alphaAt (seqArr m c) (tableIn m c) b ⟨l.val, hl⟩ s = alphaAt (xIn m c) (uIn m c) b l s
  rw [seqArr_eq]
  exact alphaAt_congr (xIn m c) (tableIn m c) (uIn m c) ⟨l.val, hl⟩ l (fun e => tableIn_row m c l ⟨l.val, hl⟩ rfl e) b s

/-- Cut to the first 8929 label rows, the attended vectors over the padded table are those over the input table. -/
theorem out_cut (c : Dev nD) :
    extractStridedSlice S8x8929x512 ![0, 0, 0] (outArr (seqArr m c) (tableIn m c)) slices_S8x9216x512_S8x8929x512_0_0_0
      = outArr (xIn m c) (uIn m c) := by
  funext i
  obtain ⟨b, l, e, rfl⟩ : ∃ (b : Fin 8) (l : Fin 8929) (e : Fin 512), i = ix3 b l e := ⟨i 0, i 1, i 2, eq_ix3 i⟩
  have hl : l.val < 9216 := by have := l.isLt; omega
  refine (slice3_axis1_apply 0 _ _ b l e ⟨l.val, hl⟩ (by show l.val = 0 + l.val; omega)).trans ?_
  show outAt (seqArr m c) (tableIn m c) b ⟨l.val, hl⟩ e = outAt (xIn m c) (uIn m c) b l e
  rw [seqArr_eq]
  exact outAt_congr (xIn m c) (tableIn m c) (uIn m c) ⟨l.val, hl⟩ l (fun e' => tableIn_row m c l ⟨l.val, hl⟩ rfl e') b e

/-! ## The run, read -/

/-- Every weakly fair execution of the idealized kernel program ends with its two results at the label-attention arrays
    of its two inputs, and the inputs unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = outArr (xIn m c) (uIn m c)
      ∧ r.2.mem ((c.tc : Thread nD τ).loc main_v5) = alphaArr (xIn m c) (uIn m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans ((out_tail m c).trans (out_cut m c)),
     ((h c).2 main_v5 (Pipeline.mem_restRefs_of main_v5 (by decide) (by decide))).trans ((alpha_tail m c).trans (alpha_cut m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.AttnArrays

end
-- ==== Proof.ReferenceRows.lean ====
/-
  The reference program's two results are the label-attention arrays.

  Read one element at a time, the reference computes, for batch element b, label l and position s: the score
  ∑ e, U[l, e] * x[b, s, e] (a contraction followed by a swap of the first two axes); the row maximum, folded over s from
  -∞ and compared with -∞ once more; the exponential of the score less that maximum; the sum over s of those
  exponentials (from the initial value 0); their quotient; and, for an embedding entry e, the sum over s of the quotient
  times x[b, s, e]. These are, operation by operation, the score, rowMax, expShift, weight and attend of the
  specification, so the two result arrays are its alphaArr and outArr.
-/
import proofs.«170555_j85899346168_1_alg».proof.Proof.Gen.ReferenceIdeal.Read
import proofs.«170555_j85899346168_1_alg».proof.Proof.RowSoftmax
import Idealize.ShloMosaic.PureOps.Reduce
import Idealize.ShloMosaic.PureOps.Ideal
import Idealize.ShloMosaic.PureOps.Ideal.Laws
import Idealize.ShloMosaic.Lib.ValueIdx

noncomputable section

namespace Cert.ReferenceRows

open Cert.ReferenceIdeal Cert.ReferenceIdeal.Gen Cert.ReferenceIdeal.Read Cert.LabelAttention Idealize.ShloMosaic
  Idealize.ShloMosaic.ValueIdx

variable (x0 : (⟨S8x2048x512, .f32⟩ : BufTy).Contents (Elt Ideal)) (x1 : (⟨S8929x512, .f32⟩ : BufTy).Contents (Elt Ideal))

/-- The swapped contraction at (b, l, s) is the score of position s for label row l against batch element b. -/
theorem scores_at (b : Fin 8) (l : Fin 8929) (s : Fin 2048) :
    val_main_v1 (F := Ideal) x0 x1 (ix3 b l s) = score (rowOf x1 l) (seqOf x0 b) s := by
  rw [val_main_v1_apply, val_main_v0_apply]
  refine Finset.sum_congr rfl fun e _ => ?_
  rw [show lidx_main_v0 (idx_main_v1 (ix3 b l s)) e = ix2 l e from
        funext fun a => Fin.ext (by match a with | ⟨0, _⟩ => rfl | ⟨1, _⟩ => rfl),
    show ridx_main_v0 (idx_main_v1 (ix3 b l s)) e = ix3 b s e from
        funext fun a => Fin.ext (by match a with | ⟨0, _⟩ => rfl | ⟨1, _⟩ => rfl | ⟨2, _⟩ => rfl)]

/-- Over the row (b, l), the index with coordinate k inserted on the position axis is (b, l, k). -/
theorem lift_position (h : S8x8929x2048.Reduces [2] S8x8929) (b : Fin 8) (l : Fin 8929) (k : Fin 2048) :
    h.lift (ix2 b l) k = ix3 b l k :=
  funext fun a => Fin.ext (by match a with | ⟨0, _⟩ => rfl | ⟨1, _⟩ => rfl | ⟨2, _⟩ => rfl)

/-- The maximum taken at (b, l) is the row maximum of that row's scores. -/
theorem rowmax_at (b : Fin 8) (l : Fin 8929) :
    val_main_v4 (F := Ideal) x0 x1 (ix2 b l) = rowMax (score (rowOf x1 l) (seqOf x0 b)) := by
  have h : S8x8929x2048.Reduces [2] S8x8929 := by decide
  rw [val_main_v4_apply, val_main_v3_apply, val_main_cst_0_apply]
  unfold val_main_v2
  rw [Host.reduce_eq_fold_single FloatOps.maximumf _ _ reducesTo_S8x8929x2048_S8x8929_d2 h h_S_ (ix2 b l),
    val_main_cst_apply]
  have hrow : (val_main_v1 (F := Ideal) x0 x1 ∘ h.lift (ix2 b l)) = score (rowOf x1 l) (seqOf x0 b) :=
    funext fun (k : Fin 2048) =>
      (congrArg (val_main_v1 (F := Ideal) x0 x1) (lift_position h b l k)).trans (scores_at x0 x1 b l k)
  rw [hrow]
  rfl

/-- The exponential at (b, l, s) is the shifted exponential of the row's score at s. -/
theorem shifted_at (b : Fin 8) (l : Fin 8929) (s : Fin 2048) :
    val_main_v8 (F := Ideal) x0 x1 (ix3 b l s) = expShift (score (rowOf x1 l) (seqOf x0 b)) s := by
  rw [val_main_v8_apply, val_main_v7_apply, val_main_v6_apply, val_main_v5_apply,
    show idx_main_v5 (idx_main_v6 (ix3 b l s)) = ix2 b l from
        funext fun a => Fin.ext (by match a with | ⟨0, _⟩ => rfl | ⟨1, _⟩ => rfl),
    rowmax_at, scores_at]
  rfl

/-- The sum taken at (b, l) is the sum of the row's shifted exponentials: its initial value is zero. -/
theorem denominator_at (b : Fin 8) (l : Fin 8929) :
    val_main_v9 (F := Ideal) x0 x1 (ix2 b l) = ∑ s : Fin 2048, expShift (score (rowOf x1 l) (seqOf x0 b)) s := by
  rw [val_main_v9_apply, val_main_cst_1_apply]
  show Ideal.ofBits .f32 0x00000000#32 + _ = _
  rw [Ideal.ofBits_zero_f32, zero_add]
  refine Finset.sum_congr rfl fun s _ => ?_
  rw [show idx_main_v9 (ix2 b l) s = ix3 b l s from
        funext fun a => Fin.ext (by match a with | ⟨0, _⟩ => rfl | ⟨1, _⟩ => rfl | ⟨2, _⟩ => rfl),
    shifted_at]

/-- The quotient at (b, l, s) is the attention weight of label l on position s of batch element b. -/
theorem weights_at (b : Fin 8) (l : Fin 8929) (s : Fin 2048) :
    val_main_v12 (F := Ideal) x0 x1 (ix3 b l s) = alphaAt x0 x1 b l s := by
  rw [val_main_v12_apply, val_main_v11_apply, val_main_v10_apply,
    show idx_main_v10 (idx_main_v11 (ix3 b l s)) = ix2 b l from
        funext fun a => Fin.ext (by match a with | ⟨0, _⟩ => rfl | ⟨1, _⟩ => rfl),
    denominator_at, shifted_at]
  rfl

/-- The second contraction at (b, l, e) is entry e of label l's attended vector for batch element b. -/
theorem attended_at (b : Fin 8) (l : Fin 8929) (e : Fin 512) :
    val_main_v13 (F := Ideal) x0 x1 (ix3 b l e) = outAt x0 x1 b l e := by
  rw [val_main_v13_apply]
  unfold outAt attend
  refine Finset.sum_congr rfl fun s _ => ?_
  rw [show lidx_main_v13 (ix3 b l e) s = ix3 b l s from
        funext fun a => Fin.ext (by match a with | ⟨0, _⟩ => rfl | ⟨1, _⟩ => rfl | ⟨2, _⟩ => rfl),
    show ridx_main_v13 (ix3 b l e) s = ix3 b s e from
        funext fun a => Fin.ext (by match a with | ⟨0, _⟩ => rfl | ⟨1, _⟩ => rfl | ⟨2, _⟩ => rfl),
    weights_at]
  rfl

open Cert.ReferenceIdeal Cert.ReferenceIdeal.Read Cert.LabelAttention Idealize.ShloMosaic in
/-- The reference's array of quotients is the array of attention weights. -/
theorem weights_eq (x0 : (⟨S8x2048x512, .f32⟩ : BufTy).Contents (Elt Ideal)) (x1 : (⟨S8929x512, .f32⟩ : BufTy).Contents (Elt Ideal)) :
    val_main_v12 (F := Ideal) x0 x1 = alphaArr x0 x1 := by
  funext i
  obtain ⟨b, l, s, rfl⟩ : ∃ b l s, i = ValueIdx.ix3 b l s := ⟨i 0, i 1, i 2, ValueIdx.eq_ix3 i⟩
  exact weights_at x0 x1 b l s

open Cert.ReferenceIdeal Cert.ReferenceIdeal.Read Cert.LabelAttention Idealize.ShloMosaic in
/-- The reference's second contraction is the array of attended vectors. -/
theorem attended_eq (x0 : (⟨S8x2048x512, .f32⟩ : BufTy).Contents (Elt Ideal)) (x1 : (⟨S8929x512, .f32⟩ : BufTy).Contents (Elt Ideal)) :
    val_main_v13 (F := Ideal) x0 x1 = outArr x0 x1 := by
  funext i
  obtain ⟨b, l, e, rfl⟩ : ∃ b l e, i = ValueIdx.ix3 b l e := ⟨i 0, i 1, i 2, ValueIdx.eq_ix3 i⟩
  exact attended_at x0 x1 b l e

end Cert.ReferenceRows

end
-- ==== Proof.lean ====
/-
  Label attention: a tiled kernel against its plain reference, over the extended reals.

  Both programs take a sequence array x [8, 2048, 512] and a label table U [8929, 512] and return, for every batch
  element b and label l, the softmax over the 2048 positions of the scores ∑ e, U[l, e] * x[b, s, e] (the attention
  weights, [8, 8929, 2048]) and the weights' combination of the sequence, ∑ s, weight[b, l, s] * x[b, s, e] (the attended
  vectors, [8, 8929, 512]).

  The kernel pads the table with 287 zero rows to 18 tiles of 512 rows and runs one grid point per batch element and tile;
  a point computes its tile's score matrix, the row maxima (from -∞, compared with -∞ once more), the shifted
  exponentials, their row sums and quotient, and the product of the quotient with the sequence; the host then cuts both
  result arrays back to 8929 label rows. The reference computes the same quantities for all labels at once. On the extended
  reals a change of float format is the identity, a product into a zero accumulator is the plain sum, and both programs
  spell the softmax operation by operation alike, so each entry of each result is the same expression of the one label row
  and the one batch element it reads; the padding rows only feed entries the final cut discards. No step uses that the
  inputs are finite: the sums are taken in the same order on both sides and the softmax is never rearranged.

  The frames of the two kernel programs are the generated frame certificates; the reference's frame is its generated run.
  The idealization rewrote no operation, so there is nothing to preserve beyond the text itself.
-/
import proofs.«170555_j85899346168_1_alg».proof.Defs
import proofs.«170555_j85899346168_1_alg».proof.Proof.Gen.Kernel
import proofs.«170555_j85899346168_1_alg».proof.Proof.Gen.Kernel.Skeleton
import proofs.«170555_j85899346168_1_alg».proof.Proof.Gen.Kernel.Launch
import proofs.«170555_j85899346168_1_alg».proof.Proof.Gen.Kernel.Points
import proofs.«170555_j85899346168_1_alg».proof.Proof.Gen.Kernel.Frame
import proofs.«170555_j85899346168_1_alg».proof.Proof.Gen.KernelIdeal
import proofs.«170555_j85899346168_1_alg».proof.Proof.Gen.KernelIdeal.Skeleton
import proofs.«170555_j85899346168_1_alg».proof.Proof.Gen.KernelIdeal.Launch
import proofs.«170555_j85899346168_1_alg».proof.Proof.Gen.KernelIdeal.Points
import proofs.«170555_j85899346168_1_alg».proof.Proof.Gen.KernelIdeal.Frame
import proofs.«170555_j85899346168_1_alg».proof.Proof.Gen.ReferenceIdeal
import proofs.«170555_j85899346168_1_alg».proof.Proof.Gen.Pre_finite_inputs
import proofs.«170555_j85899346168_1_alg».proof.Proof.Gen.ReferenceIdeal.Run
import proofs.«170555_j85899346168_1_alg».proof.Proof.Gen.ReferenceIdeal.Read
import proofs.«170555_j85899346168_1_alg».proof.Proof.AroundRegion
import proofs.«170555_j85899346168_1_alg».proof.Proof.ReferenceRows
import Idealize.ShloMosaic.Adequacy
import Idealize.ShloMosaic.Init

noncomputable section

namespace Cert.Proof

open Idealize.ShloMosaic Idealize.SL.Sem

/-- The word-level kernel program runs and keeps its inputs. -/
theorem frame_kernel : Cert.frame_Kernel := fun m ρ _ => Cert.Kernel.Gen.frame m ρ

/-- The idealized kernel program runs and keeps its inputs. -/
theorem frame_kernelIdeal : Cert.frame_KernelIdeal := fun m ρ _ => Cert.KernelIdeal.Gen.frame m ρ

/-- The reference runs and keeps its inputs: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the two inputs, both programs end with the attended vectors and the attention weights of
    those inputs: the kernel by its tiles, the pad and the final cut; the reference operation by operation. -/
theorem algebraic : Cert.algebraic_KernelIdeal_ReferenceIdeal := by
  intro m ρ m' ρ' _ hagree
  refine ⟨_, _, Cert.AttnArrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v13_eq, Cert.ReferenceRows.attended_eq, (hagree c).1, (hagree c).2]
  · rw [(h c).2.1, Cert.ReferenceIdeal.Read.val_main_v12_eq, Cert.ReferenceRows.weights_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
